-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x256 : Shape := ⟨2, ![128, 256]⟩
abbrev S256 : Shape := ⟨1, ![256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg8 : FVec F S128x256 .f32) (main_arg9 : FVec F S256 .f32) (main_v33 : IVec S_ 1) : IVec S_ 1 :=
  let main_v34 : FVec F S128x256 .f32 := Host.absf main_arg8
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg5 : FVec F S64 .f32) (main_arg6 : FVec F S64x128 .f32) (main_arg7 : FVec F S128 .f32) (main_arg8 : FVec F S128x256 .f32) (main_arg9 : FVec F S256 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x256 .f32) (main_arg1 : IVec S2x1600000 32) (main_arg2 : FVec F S256x128 .f32) (main_arg3 : FVec F S128 .f32) (main_arg4 : FVec F S128x64 .f32) (main_arg5 : FVec F S64 .f32) (main_arg6 : FVec F S64x128 .f32) (main_arg7 : FVec F S128 .f32) (main_arg8 : FVec F S128x256 .f32) (main_arg9 : FVec F S256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_arg9 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x256 : Shape := ⟨2, ![128, 256]⟩
abbrev S256 : Shape := ⟨1, ![256]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S2000x256 : Shape := ⟨2, ![2000, 256]⟩
abbrev S2000x128 : Shape := ⟨2, ![2000, 128]⟩
abbrev S1700000x128 : Shape := ⟨2, ![1700000, 128]⟩
abbrev S1x128 : Shape := ⟨2, ![1, 128]⟩
abbrev S1x64 : Shape := ⟨2, ![1, 64]⟩
abbrev S1x256 : Shape := ⟨2, ![1, 256]⟩
abbrev S2000x64 : Shape := ⟨2, ![2000, 64]⟩

abbrev nBuf : Space → Nat
  | .hbm => 75
  | .vmem => 16
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x128, .f32⟩
  | .hbm, ⟨7, _⟩ => ⟨S128, .f32⟩
  | .hbm, ⟨8, _⟩ => ⟨S128x256, .f32⟩
  | .hbm, ⟨9, _⟩ => ⟨S256, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S100000x128, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x128, .f32⟩
  | .hbm, ⟨63, _⟩ => ⟨S1700000x1, .f32⟩
  | .hbm, ⟨64, _⟩ => ⟨S1700000x128, .f32⟩
  | .hbm, ⟨65, _⟩ => ⟨S1700000x128, .f32⟩
  | .hbm, ⟨66, _⟩ => ⟨S_, .f32⟩
  | .hbm, ⟨67, _⟩ => ⟨S100000x128, .f32⟩
  | .hbm, ⟨68, _⟩ => ⟨S1700000x1, .i32⟩
  | .hbm, ⟨69, _⟩ => ⟨S100000x128, .f32⟩
  | .hbm, ⟨70, _⟩ => ⟨S1x128, .f32⟩
  | .hbm, ⟨71, _⟩ => ⟨S1x64, .f32⟩
  | .hbm, ⟨72, _⟩ => ⟨S1x128, .f32⟩
  | .hbm, ⟨73, _⟩ => ⟨S1x256, .f32⟩
  | .hbm, ⟨74, _⟩ => ⟨S100000x256, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S128x64, .f32⟩
  | .local _ .vmem, ⟨9, _⟩ => ⟨S1x64, .f32⟩
  | .local _ .vmem, ⟨10, _⟩ => ⟨S64x128, .f32⟩
  | .local _ .vmem, ⟨11, _⟩ => ⟨S1x128, .f32⟩
  | .local _ .vmem, ⟨12, _⟩ => ⟨S128x256, .f32⟩
  | .local _ .vmem, ⟨13, _⟩ => ⟨S1x256, .f32⟩
  | .local _ .vmem, ⟨14, _⟩ => ⟨S2000x256, .f32⟩
  | .local _ .vmem, ⟨15, _⟩ => ⟨S2000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc1_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem8_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S64_S1x64 : S64.ShapeCasts S1x64
  shapeCasts_S256_S1x256 : S256.ShapeCasts S1x256
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x128_S64x128_0_0 : ∀ a, (![0, 0] : Fin 2 → Nat) a + S64x128.size a ≤ S64x128.size a
  h_S64x128 : 0 < S64x128.numel
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x256_S256x128_S2000x128_1_0_0_1_n_n_wf : DotDims.WF S2000x256 S256x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x64_S2000x64_1_0_0_1_n_n_wf : DotDims.WF S2000x128 S128x64 S2000x64 [1] [0] [0] [1] [] []
  dot_S2000x64_S64x128_S2000x128_1_0_0_1_n_n_wf : DotDims.WF S2000x64 S64x128 S2000x128 [1] [0] [0] [1] [] []
  dot_S2000x128_S128x256_S2000x256_1_0_0_1_n_n_wf : DotDims.WF S2000x128 S128x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x256.size a ≤ S128x256.size a
  hwx1_6 : ∀ i : grid1.Coords, EltTy.bits .f32 = 32 ∨ (Rect.block (s := S128x256) S128x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x256.size a ≤ S100000x256.size a
  hwx1_8 : ∀ i : grid1.Coords, EltTy.bits .f32 = 32 ∨ (Rect.block (s := S100000x256) S2000x256.size (cc1_transform_8 i) (hinb1_8 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S128x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v49) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v50) S2000x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x256 : Shape := ⟨2, ![128, 256]⟩
abbrev S256 : Shape := ⟨1, ![256]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x64 : Shape := ⟨2, ![100000, 64]⟩
abbrev S1x64 : Shape := ⟨2, ![1, 64]⟩
abbrev S1x256 : Shape := ⟨2, ![1, 256]⟩

abbrev nBuf : Space → Nat
  | .hbm => 91
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x128, .f32⟩
  | .hbm, ⟨7, _⟩ => ⟨S128, .f32⟩
  | .hbm, ⟨8, _⟩ => ⟨S128x256, .f32⟩
  | .hbm, ⟨9, _⟩ => ⟨S256, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S100000x128, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x128, .f32⟩
  | .hbm, ⟨63, _⟩ => ⟨S1700000x1, .f32⟩
  | .hbm, ⟨64, _⟩ => ⟨S1700000x128, .f32⟩
  | .hbm, ⟨65, _⟩ => ⟨S1700000x128, .f32⟩
  | .hbm, ⟨66, _⟩ => ⟨S_, .f32⟩
  | .hbm, ⟨67, _⟩ => ⟨S100000x128, .f32⟩
  | .hbm, ⟨68, _⟩ => ⟨S1700000x1, .i32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S100000x128, .f32⟩
  | .hbm, ⟨73, _⟩ => ⟨S_, .f32⟩
  | .hbm, ⟨74, _⟩ => ⟨S100000x128, .f32⟩
  | .hbm, ⟨75, _⟩ => ⟨S100000x128, .f32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S100000x128, .f32⟩
  | .hbm, ⟨84, _⟩ => ⟨S_, .f32⟩
  | .hbm, ⟨85, _⟩ => ⟨S100000x128, .f32⟩
  | .hbm, ⟨86, _⟩ => ⟨S100000x128, .f32⟩
  | .hbm, ⟨87, _⟩ => ⟨S100000x256, .f32⟩
  | .hbm, ⟨88, _⟩ => ⟨S1x256, .f32⟩
  | .hbm, ⟨89, _⟩ => ⟨S100000x256, .f32⟩
  | .hbm, ⟨90, _⟩ => ⟨S100000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_call2_cst : Ref sig .tc := ⟨.hbm, 84, rfl⟩
abbrev main_call2_v0 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  dot_S100000x64_S64x128_S100000x128_1_0_0_1_n_n_wf : DotDims.WF S100000x64 S64x128 S100000x128 [1] [0] [0] [1] [] []
  dot_S100000x128_S128x256_S100000x256_1_0_0_1_n_n_wf : DotDims.WF S100000x128 S128x256 S100000x256 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf

class Facts : Prop extends Facts₀ where

variable [Facts]
-- ==== Proof.DenseChain.lean ====
/-
  Three dense layers over the rows of a matrix, at the ideal values, for any number of rows M:
      h = max (a + b0) 0          (M × 128; the bias row laid along every row)
      z = h · W1 + b1             (M × 64)
      d = max (z · W2 + b2) 0     (M × 128)
      out = d · W3 + b3           (M × 256)
  written with the host's operations (a matrix product with no accumulator, a one-row matrix broadcast down the rows).
  Row r of the result depends on row r of `a` only, and not on M: `chain_congr_row`. That is what lets a block of
  rows computed by itself be the same rows of the whole.
-/
import Idealize.ShloMosaic.Lib.Pipeline.Value
import Idealize.ShloMosaic.Lib.KernelVsHost
import Idealize.ShloMosaic.Lib.StackMember

noncomputable section

open Idealize.ShloMosaic Idealize.ShloMosaic.ValueIdx

namespace Cert.Dense

/-- The scalar shape. -/
abbrev S0 : Shape := ⟨0, ![]⟩
/-- An m × n matrix's shape. -/
abbrev Mat (m n : Nat) : Shape := ⟨2, ![m, n]⟩

/-- The three layers over M rows. -/
def chain (M : Nat)
    (h128 : (Mat 1 128).BroadcastsInDim (Mat M 128) ![0, 1]) (h64 : (Mat 1 64).BroadcastsInDim (Mat M 64) ![0, 1])
    (h256 : (Mat 1 256).BroadcastsInDim (Mat M 256) ![0, 1]) (hz : S0.BroadcastsInDim (Mat M 128) ![])
    (a : FVec Ideal (Mat M 128) .f32) (b0 : FVec Ideal (Mat 1 128) .f32) (w1 : FVec Ideal (Mat 128 64) .f32)
    (b1 : FVec Ideal (Mat 1 64) .f32) (w2 : FVec Ideal (Mat 64 128) .f32) (b2 : FVec Ideal (Mat 1 128) .f32)
    (w3 : FVec Ideal (Mat 128 256) .f32) (b3 : FVec Ideal (Mat 1 256) .f32) : FVec Ideal (Mat M 256) .f32 :=
  addf (Host.dotGeneral (DotDims.plain M 128 256) none
      (maximumf (addf (Host.dotGeneral (DotDims.plain M 64 128) none
          (addf (Host.dotGeneral (DotDims.plain M 128 64) none
              (maximumf (addf a (broadcastInDim (Mat M 128) ![0, 1] h128 b0))
                (broadcastInDim (Mat M 128) ![] hz (constant S0 .f32 0x00000000#32))) w1)
            (broadcastInDim (Mat M 64) ![0, 1] h64 b1)) w2)
          (broadcastInDim (Mat M 128) ![0, 1] h128 b2))
        (broadcastInDim (Mat M 128) ![] hz (constant S0 .f32 0x00000000#32))) w3)
    (broadcastInDim (Mat M 256) ![0, 1] h256 b3)

/-- The three layers on ONE row `a` of 128 entries: entry j of the 256 results. -/
def row (a : Fin 128 → EReal) (b0 : FVec Ideal (Mat 1 128) .f32) (w1 : FVec Ideal (Mat 128 64) .f32)
    (b1 : FVec Ideal (Mat 1 64) .f32) (w2 : FVec Ideal (Mat 64 128) .f32) (b2 : FVec Ideal (Mat 1 128) .f32)
    (w3 : FVec Ideal (Mat 128 256) .f32) (b3 : FVec Ideal (Mat 1 256) .f32) (j : Fin 256) : EReal :=
  (∑ c : Fin 128,
      max ((∑ d : Fin 64,
              ((∑ e : Fin 128, max (a e + b0 (ix2 (0 : Fin 1) e)) 0 * w1 (ix2 e d)) + b1 (ix2 (0 : Fin 1) d))
                * w2 (ix2 d c))
            + b2 (ix2 (0 : Fin 1) c)) 0
        * w3 (ix2 c j))
    + b3 (ix2 (0 : Fin 1) j)

/-- A sum of two vectors read at an index. -/
theorem addf_apply {s : Shape} (x y : FVec Ideal s .f32) (i : s.Idx) : addf x y i = x i + y i := rfl

/-- The larger of two vectors read at an index. -/
theorem maximumf_apply {s : Shape} (x y : FVec Ideal s .f32) (i : s.Idx) : maximumf x y i = max (x i) (y i) := rfl

/-- The scalar zero broadcast to any shape is zero at every index. -/
theorem zero_apply {t : Shape} (hz : S0.BroadcastsInDim t ![]) (i : t.Idx) :
    broadcastInDim t ![] hz (constant S0 .f32 0x00000000#32 : FVec Ideal S0 .f32) i = 0 := by
  rw [broadcastInDim_constant]
  exact Ideal.ofBits_zero_f32

/-- One dense layer read at (r, j): the sum over the contracted coordinate, plus the bias row's entry j. -/
theorem dense_apply {M k n : Nat} (x : FVec Ideal (Mat M k) .f32) (w : FVec Ideal (Mat k n) .f32)
    (b : FVec Ideal (Mat 1 n) .f32) (h : (Mat 1 n).BroadcastsInDim (Mat M n) ![0, 1]) (r : Fin M) (j : Fin n) :
    addf (Host.dotGeneral (DotDims.plain M k n) none x w) (broadcastInDim (Mat M n) ![0, 1] h b) (ix2 r j)
      = (∑ c : Fin k, x (ix2 r c) * w (ix2 c j)) + b (ix2 (0 : Fin 1) j) := by
  rw [addf_apply, StackMember.dotGeneral_plain_apply, broadcastInDim_oneRow_apply]

/-- The larger of a vector and the broadcast zero, read at an index. -/
theorem relu_apply {t : Shape} (x : FVec Ideal t .f32) (hz : S0.BroadcastsInDim t ![]) (i : t.Idx) :
    maximumf x (broadcastInDim t ![] hz (constant S0 .f32 0x00000000#32)) i = max (x i) 0 := by
  rw [maximumf_apply, zero_apply]

/-- Row r of the chain over M rows is the three layers on row r of the input. -/
theorem chain_apply (M : Nat)
    (h128 : (Mat 1 128).BroadcastsInDim (Mat M 128) ![0, 1]) (h64 : (Mat 1 64).BroadcastsInDim (Mat M 64) ![0, 1])
    (h256 : (Mat 1 256).BroadcastsInDim (Mat M 256) ![0, 1]) (hz : S0.BroadcastsInDim (Mat M 128) ![])
    (a : FVec Ideal (Mat M 128) .f32) (b0 : FVec Ideal (Mat 1 128) .f32) (w1 : FVec Ideal (Mat 128 64) .f32)
    (b1 : FVec Ideal (Mat 1 64) .f32) (w2 : FVec Ideal (Mat 64 128) .f32) (b2 : FVec Ideal (Mat 1 128) .f32)
    (w3 : FVec Ideal (Mat 128 256) .f32) (b3 : FVec Ideal (Mat 1 256) .f32) (r : Fin M) (j : Fin 256) :
    chain M h128 h64 h256 hz a b0 w1 b1 w2 b2 w3 b3 (ix2 r j)
      = row (fun k => a (ix2 r k)) b0 w1 b1 w2 b2 w3 b3 j := by
  unfold chain row
  rw [dense_apply]
  refine congrArg (· + b3 (ix2 (0 : Fin 1) j)) (Finset.sum_congr rfl fun c _ => congrArg (· * w3 (ix2 c j)) ?_)
  rw [relu_apply, dense_apply]
  refine congrArg (fun v => max (v + b2 (ix2 (0 : Fin 1) c)) 0)
    (Finset.sum_congr rfl fun d _ => congrArg (· * w2 (ix2 d c)) ?_)
  rw [dense_apply]
  refine congrArg (· + b1 (ix2 (0 : Fin 1) d)) (Finset.sum_congr rfl fun e _ => congrArg (· * w1 (ix2 e d)) ?_)
  rw [relu_apply, addf_apply, broadcastInDim_oneRow_apply]

/-- Row r of the chain over M rows and row r' of the chain over M' rows are equal when the two input rows are. -/
theorem chain_congr_row (M M' : Nat)
    (h128 : (Mat 1 128).BroadcastsInDim (Mat M 128) ![0, 1]) (h64 : (Mat 1 64).BroadcastsInDim (Mat M 64) ![0, 1])
    (h256 : (Mat 1 256).BroadcastsInDim (Mat M 256) ![0, 1]) (hz : S0.BroadcastsInDim (Mat M 128) ![])
    (h128' : (Mat 1 128).BroadcastsInDim (Mat M' 128) ![0, 1]) (h64' : (Mat 1 64).BroadcastsInDim (Mat M' 64) ![0, 1])
    (h256' : (Mat 1 256).BroadcastsInDim (Mat M' 256) ![0, 1]) (hz' : S0.BroadcastsInDim (Mat M' 128) ![])
    (a : FVec Ideal (Mat M 128) .f32) (a' : FVec Ideal (Mat M' 128) .f32)
    (b0 : FVec Ideal (Mat 1 128) .f32) (w1 : FVec Ideal (Mat 128 64) .f32)
    (b1 : FVec Ideal (Mat 1 64) .f32) (w2 : FVec Ideal (Mat 64 128) .f32) (b2 : FVec Ideal (Mat 1 128) .f32)
    (w3 : FVec Ideal (Mat 128 256) .f32) (b3 : FVec Ideal (Mat 1 256) .f32)
    (r : Fin M) (r' : Fin M') (hrow : ∀ k : Fin 128, a (ix2 r k) = a' (ix2 r' k)) (j : Fin 256) :
    chain M h128 h64 h256 hz a b0 w1 b1 w2 b2 w3 b3 (ix2 r j)
      = chain M' h128' h64' h256' hz' a' b0 w1 b1 w2 b2 w3 b3 (ix2 r' j) := by
  rw [chain_apply, chain_apply]
  exact congrArg (fun f => row f b0 w1 b1 w2 b2 w3 b3 j) (funext hrow)

end Cert.Dense

end
-- ==== Proof.RefTail.lean ====
/-
  The reference's result, read as its stages: the first matrix product is the plain product x · w, and everything after
  the scatter-add that aggregates the messages is the three dense layers (`Cert.Dense.chain`) over the 100000 rows of
  the aggregate, the bias vectors entering as one-row matrices. Both are the stages' own definitions unfolded: the
  reference's product records are the plain M × K by K × N ones.
-/
import proofs.«168724_j9998683865331_1_alg».proof.Proof.RefRead
import proofs.«168724_j9998683865331_1_alg».proof.Proof.DenseChain

noncomputable section

open Idealize.ShloMosaic Idealize.ShloMosaic.TcCoe Idealize.SL.Sem Idealize.ShloMosaic.ValueIdx

namespace Cert.ReferenceIdeal.Tail

open Cert.ReferenceIdeal Cert.ReferenceIdeal.ReadP Cert.Dense

/-- h = x · w. -/
theorem product_eq (x0 : FVec Ideal S100000x256 .f32) (x2 : FVec Ideal S256x128 .f32) :
    val_main_v32 (F := Ideal) x0 x2
      = Host.dotGeneral (F := Ideal) (φ₁ := .f32) (φ₂ := .f32) (DotDims.plain 100000 256 128) none x0 x2 := rfl

/-- The result is the three dense layers of the aggregate (stage 45), whatever the aggregate is. -/
theorem result_eq_chain (x0 : FVec Ideal S100000x256 .f32) (x1 : IVec S2x1600000 32) (x2 : FVec Ideal S256x128 .f32)
    (x3 : FVec Ideal S128 .f32) (x4 : FVec Ideal S128x64 .f32) (x5 : FVec Ideal S64 .f32) (x6 : FVec Ideal S64x128 .f32)
    (x7 : FVec Ideal S128 .f32) (x8 : FVec Ideal S128x256 .f32) (x9 : FVec Ideal S256 .f32)
    (h128 : (Mat 1 128).BroadcastsInDim (Mat 100000 128) ![0, 1]) (h64 : (Mat 1 64).BroadcastsInDim (Mat 100000 64) ![0, 1])
    (h256 : (Mat 1 256).BroadcastsInDim (Mat 100000 256) ![0, 1]) (hz : S0.BroadcastsInDim (Mat 100000 128) ![]) :
    val_main_v62 (F := Ideal) x0 x1 x2 x3 x4 x5 x6 x7 x8 x9
      = chain 100000 h128 h64 h256 hz (val_main_v45 (F := Ideal) x0 x1 x2) (val_main_v46 (F := Ideal) x3) x4
          (val_main_v51 (F := Ideal) x5) x6 (val_main_v55 (F := Ideal) x7) x8 (val_main_v60 (F := Ideal) x9) := by
  unfold val_main_v62 val_main_v61 val_main_v59 val_main_v58 val_main_call2_v0 val_main_call2_cst val_main_v57 val_main_v56
    val_main_v54 val_main_v53 val_main_v52 val_main_v50 val_main_v49 val_main_call1_v0 val_main_call1_cst val_main_v48
    val_main_v47 chain
  rfl

end Cert.ReferenceIdeal.Tail

end
-- ==== Proof.DensePayload.lean ====
/-
  What the two kernel bodies store, at the ideal values, in the host's spelling: a change of float format is the
  identity, a matrix product into a zero accumulator is the product, a one-row bias broadcast down a block's rows is
  the host's broadcast of it. So the first body stores the product of its two blocks, and the second the three dense
  layers (`Cert.Dense.chain`) over the 2000 rows of its block.
-/
import proofs.«168724_j9998683865331_1_alg».proof.Proof.Gen.KernelIdeal.Skeleton
import proofs.«168724_j9998683865331_1_alg».proof.Proof.DenseChain

noncomputable section

open Idealize.ShloMosaic Idealize.ShloMosaic.ValueIdx

namespace Cert.KernelIdeal.Payload

open Cert.KernelIdeal Cert.KernelIdeal.Gen Cert.Dense

/-- A one-row matrix laid down m rows: the kernel's broadcast of it is the host's broadcast along both axes. -/
theorem broadcastTo_oneRow_eq {m n : Nat} (v : FVec Ideal (Mat 1 n) .f32) (hb : (Mat 1 n).Broadcasts (Mat m n))
    (hd : (Mat 1 n).BroadcastsInDim (Mat m n) ![0, 1]) :
    broadcastTo (Mat m n) v hb = broadcastInDim (Mat m n) ![0, 1] hd v := by
  funext i
  obtain ⟨p, q, rfl⟩ : ∃ (p : Fin m) (q : Fin n), i = ix2 p q := ⟨i 0, i 1, eq_ix2 i⟩
  rw [broadcastInDim_oneRow_apply]
  refine broadcastTo_apply v hb (ix2 p q) (ix2 (0 : Fin 1) q) fun ax => ?_
  match ax with
  | ⟨0, _⟩ => rfl
  | ⟨1, _⟩ =>
    show q.val = if n = 1 then 0 else q.val
    split
    · have := q.isLt; omega
    · rfl

/-- The kernel's splat of the scalar zero is the host's broadcast of the zero constant. -/
theorem broadcast_zero_eq {t : Shape} (hz : S0.BroadcastsInDim t ![]) :
    broadcast t (Scalar.ofBits (F := Ideal) .f32 0x00000000#32)
      = broadcastInDim t ![] hz (constant S0 .f32 0x00000000#32 : FVec Ideal S0 .f32) :=
  (broadcastInDim_constant (F := Ideal) (s := S0) (t := t) (φ := .f32) ![] hz 0x00000000#32).symm

/-- The first body stores x · w. -/
theorem pay0_eq (x0 : Vec Ideal S2000x256 .f32) (x1 : Vec Ideal S256x128 .f32) :
    k0_pay1 (F := Ideal) x0 x1
      = Host.dotGeneral (F := Ideal) (φ₁ := .f32) (φ₂ := .f32) (DotDims.plain 2000 256 128) none x0 x1 := by
  unfold k0_pay1
  exact matmul_zero_eq_dotGeneral _ _ _ _

/-- The second body stores the three dense layers of its block of rows. -/
theorem pay1_eq
    (h128 : (Mat 1 128).BroadcastsInDim (Mat 2000 128) ![0, 1]) (h64 : (Mat 1 64).BroadcastsInDim (Mat 2000 64) ![0, 1])
    (h256 : (Mat 1 256).BroadcastsInDim (Mat 2000 256) ![0, 1]) (hz : S0.BroadcastsInDim (Mat 2000 128) ![])
    (x0 : Vec Ideal S2000x128 .f32) (x1 : Vec Ideal S1x128 .f32) (x2 : Vec Ideal S128x64 .f32) (x3 : Vec Ideal S1x64 .f32)
    (x4 : Vec Ideal S64x128 .f32) (x5 : Vec Ideal S1x128 .f32) (x6 : Vec Ideal S128x256 .f32) (x7 : Vec Ideal S1x256 .f32) :
    k1_pay1 (F := Ideal) x0 x1 x2 x3 x4 x5 x6 x7 = chain 2000 h128 h64 h256 hz x0 x1 x2 x3 x4 x5 x6 x7 := by
  unfold k1_pay1 chain
  simp only [shapeCast_self]
  rw [broadcastTo_oneRow_eq (m := 2000) (n := 128) x1 _ h128, broadcastTo_oneRow_eq (m := 2000) (n := 64) x3 _ h64,
    broadcastTo_oneRow_eq (m := 2000) (n := 128) x5 _ h128, broadcastTo_oneRow_eq (m := 2000) (n := 256) x7 _ h256,
    broadcast_zero_eq hz,
    matmul_zero_eq_dotGeneral, matmul_zero_eq_dotGeneral, matmul_zero_eq_dotGeneral]
  -- the two sides now differ only by the changes of float format, each the identity at the ideal values, and by
  -- the spelling of the three products' dimension records
  rfl

end Cert.KernelIdeal.Payload

end
-- ==== Proof.Region0.lean ====
/-
  The first kernel region: 50 grid points, point t multiplying rows 2000 t … 2000 t + 1999 of x by the whole of w and
  writing the product to the same rows of the result. The blocks tile the result's 100000 rows, and row r of a product
  depends on row r of the left factor only, so the array the region leaves is the whole product x · w.
-/
import proofs.«168724_j9998683865331_1_alg».proof.Proof.Gen.KernelIdeal.Frame
import proofs.«168724_j9998683865331_1_alg».proof.Proof.DensePayload
import Idealize.ShloMosaic.Lib.Pipeline.Value
import Idealize.ShloMosaic.Lib.StackMember

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.Dense

variable (V : (c : Dev nD) → (b : Ref sig .tc) → Buf (Elt Ideal) ((c : Thread nD τ).loc b))

/-- The zero offsets, however they are spelt. -/
theorem zero_offsets : (![0, 0] : Fin 2 → Nat) = fun _ => 0 := funext fun a => by fin_cases a <;> rfl

/-- The block indices at each of the 50 points: point t takes block row t of x and of the result, and the one block of w. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- There are 50 points. -/
theorem point_lt (t : Fin cfg0.N) : t.val < 50 := lt_of_lt_of_eq t.isLt N_0

/-- x · w of the arrays the region is entered with. -/
abbrev product (c : Dev nD) : FVec Ideal S100000x128 .f32 :=
  Host.dotGeneral (F := Ideal) (φ₁ := .f32) (φ₂ := .f32) (DotDims.plain 100000 256 128) none (V c main_arg0) (V c main_arg2)

/-- Entry (p, q) of the result's block at point t is entry (2000 t + p, q) of the result. -/
theorem result_block_entry (t : Fin cfg0.N) (p : Fin 2000) (q : Fin 128) (h : t.val * 2000 + p.val < 100000) :
    ((cfg0.win 2).blk t).view.emb (ix2 p q) = (ix2 ⟨t.val * 2000 + p.val, h⟩ q : S100000x128.Idx) := by
  obtain ⟨e0, e1, e2, e3, e4, e5⟩ := block_indices t
  funext a; apply Fin.ext
  match a with
  | ⟨0, _⟩ => show win0_2.index t (0 : Fin 2) * 2000 + 1 * p.val = t.val * 2000 + p.val; omega
  | ⟨1, _⟩ => show win0_2.index t (1 : Fin 2) * 128 + 1 * q.val = q.val; omega

/-- Entry (p, k) of x's block at point t is entry (2000 t + p, k) of x. -/
theorem x_block (c : Dev nD) (t : Fin cfg0.N) (p : Fin 2000) (k : Fin 256) (h : t.val * 2000 + p.val < 100000) :
    iblk0 V c 0 t (ix2 p k) = V c main_arg0 (ix2 ⟨t.val * 2000 + p.val, h⟩ k : S100000x256.Idx) := by
  obtain ⟨e0, e1, e2, e3, e4, e5⟩ := block_indices t
  show V c main_arg0 (((cfg0.win 0).blk t).view.emb (ix2 p k)) = _
  congr 1
  funext a; apply Fin.ext
  match a with
  | ⟨0, _⟩ => show win0_0.index t (0 : Fin 2) * 2000 + 1 * p.val = t.val * 2000 + p.val; omega
  | ⟨1, _⟩ => show win0_0.index t (1 : Fin 2) * 256 + 1 * k.val = k.val; omega

/-- w's block at every point is the whole of w. -/
theorem w_block (c : Dev nD) (t : Fin cfg0.N) (k : Fin 256) (q : Fin 128) :
    iblk0 V c 1 t (ix2 k q) = V c main_arg2 (ix2 k q : S256x128.Idx) := by
  obtain ⟨e0, e1, e2, e3, e4, e5⟩ := block_indices t
  show V c main_arg2 (((cfg0.win 1).blk t).view.emb (ix2 k q)) = _
  congr 1
  funext a; apply Fin.ext
  match a with
  | ⟨0, _⟩ => show win0_1.index t (0 : Fin 2) * 256 + 1 * k.val = k.val; omega
  | ⟨1, _⟩ => show win0_1.index t (1 : Fin 2) * 128 + 1 * q.val = q.val; omega

/-- What point t writes back is block t of x · w: entry (p, q) of the product of x's block of rows by w is
    ∑ k, x (2000 t + p, k) * w (k, q), which is entry (2000 t + p, q) of x · w. -/
theorem written_block (c : Dev nD) (t : Fin cfg0.N) :
    (dat0 (F := Ideal) V c).flushed 2 t = ((cfg0.win 2).blk t).view.read (Elt Ideal) (product V c) := by
  show (cfg0.win 2).cut (grid0.coords t) ((dat0 V c).after 2 t) = _
  rw [after0_2]
  unfold out0_2
  rw [View.canon_unit_zero zero_offsets]
  simp only [View.ld_unit_zero (S := S2000x256) zero_offsets, View.ld_unit_zero (S := S256x128) zero_offsets]
  rw [Cert.KernelIdeal.Payload.pay0_eq]
  funext j
  obtain ⟨p, q, rfl⟩ : ∃ (p : Fin 2000) (q : Fin 128), j = ix2 p q := ⟨j 0, j 1, eq_ix2 j⟩
  have ht := point_lt t
  have hp : t.val * 2000 + p.val < 100000 := by have := p.isLt; omega
  show Host.dotGeneral (F := Ideal) (φ₁ := .f32) (φ₂ := .f32) (DotDims.plain 2000 256 128) none (iblk0 V c 0 t) (iblk0 V c 1 t) (ix2 p q)
    = product V c (((cfg0.win 2).blk t).view.emb (ix2 p q))
  rw [result_block_entry t p q hp]
  unfold product
  rw [StackMember.dotGeneral_plain_apply, StackMember.dotGeneral_plain_apply]
  refine Finset.sum_congr rfl fun k _ => ?_
  rw [x_block V c t p k hp, w_block V c t k q]

/-- An index of the result is in point t's block iff each coordinate is in the block's range on its axis. -/
theorem mem_result_block (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v32).slice (win0_2.rect t)).set ↔ _
  rw [View.set_slice_whole, Rect.mem_set_unit]
  exact Iff.rfl

/-- The blocks tile the result: row r is in the block of the point r / 2000. -/
theorem rows_covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 2000 :=
    ⟨⟨(i 0).val / 2000, lt_of_lt_of_eq (by omega : (i 0).val / 2000 < 50) N_0.symm⟩, rfl⟩
  obtain ⟨e0, e1, e2, e3, e4, e5⟩ := block_indices t
  refine ⟨t, flush0_2 t, ?_⟩
  rw [mem_result_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The array region 0 leaves in its output window is x · w of the arrays it was entered with. -/
theorem region0_array (c : Dev nD) :
    ((dat0 (F := Ideal) V c).arrAt 2 cfg0.N : FVec Ideal S100000x128 .f32)
      = Host.dotGeneral (F := Ideal) (φ₁ := .f32) (φ₂ := .f32) (DotDims.plain 100000 256 128) none (V c main_arg0) (V c main_arg2) :=
  (dat0 (F := Ideal) V c).arrAt_eq_of_cover 2 (product V c) (fun t _ => written_block V c t) rows_covered

end Cert.KernelIdeal.Region0

end
-- ==== Proof.Region1.lean ====
/-
  The second kernel region: 50 grid points, point t taking rows 2000 t … 2000 t + 1999 of the aggregated features through
  the three dense layers (the bias rows and the weight matrices staged whole at every point) and writing the result to the
  same rows of the output. The blocks tile the 100000 rows and a row of the layers' result depends on that row of the
  input only, so the array the region leaves is the three layers over all 100000 rows.
-/
import proofs.«168724_j9998683865331_1_alg».proof.Proof.Gen.KernelIdeal.Frame
import proofs.«168724_j9998683865331_1_alg».proof.Proof.DensePayload
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.Dense

variable (V : (c : Dev nD) → (b : Ref sig .tc) → Buf (Elt Ideal) ((c : Thread nD τ).loc b))

/-- The zero offsets of a whole-buffer access, as a constant function. -/
theorem zero_offsets : (![0, 0] : Fin 2 → Nat) = fun _ => 0 := funext fun a => by
  match a with
  | ⟨0, _⟩ => rfl
  | ⟨1, _⟩ => rfl

/-- The index maps over the grid: the input rows and the output rows move with the point, block t at point t; the
    bias rows and the weight matrices are staged whole, at block (0, 0), at every point. -/
theorem index_facts : ∀ t : Fin cfg1.N,
    win1_0.index t (0 : Fin 2) = t.val ∧ win1_0.index t (1 : Fin 2) = 0
    ∧ win1_8.index t (0 : Fin 2) = t.val ∧ win1_8.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

/-- There are 50 points. -/
theorem point_lt (t : Fin cfg1.N) : t.val < 50 := lt_of_lt_of_eq t.isLt N_1

/-- Row p of the input block at point t is row 2000 t + p of the input. -/
theorem block_a_row (c : Dev nD) (t : Fin cfg1.N) (p : Fin 2000) (h : t.val * 2000 + p.val < 100000) (k : Fin 128) :
    (iblk1 V c 0 t : Vec Ideal S2000x128 .f32) (ix2 p k) = V c main_v45 (ix2 ⟨t.val * 2000 + p.val, h⟩ k) := by
  obtain ⟨e0, e1, -⟩ := index_facts t
  show V c main_v45 (((cfg1.win 0).blk t).view.emb (ix2 p k)) = V c main_v45 (ix2 ⟨t.val * 2000 + p.val, h⟩ k)
  congr 1
  funext a; apply Fin.ext
  match a with
  | ⟨0, _⟩ => show win1_0.index t (0 : Fin 2) * 2000 + 1 * p.val = t.val * 2000 + p.val; omega
  | ⟨1, _⟩ => show win1_0.index t (1 : Fin 2) * 128 + 1 * k.val = k.val; omega

/-- The first layer's bias row is staged whole: its block at every point is the row itself. -/
theorem block_b0 (c : Dev nD) (t : Fin cfg1.N) : (iblk1 V c 1 t : Vec Ideal S1x128 .f32) = V c main_v46 := by
  obtain ⟨-, -, -, -, e0, e1, -⟩ := index_facts t
  funext y
  show V c main_v46 (((cfg1.win 1).blk t).view.emb y) = V c main_v46 y
  congr 1
  funext a; apply Fin.ext
  match a with
  | ⟨0, _⟩ => show win1_1.index t (0 : Fin 2) * 1 + 1 * (y 0).val = (y 0).val; omega
  | ⟨1, _⟩ => show win1_1.index t (1 : Fin 2) * 128 + 1 * (y 1).val = (y 1).val; omega

/-- The second layer's weights are staged whole. -/
theorem block_w1 (c : Dev nD) (t : Fin cfg1.N) : (iblk1 V c 2 t : Vec Ideal S128x64 .f32) = V c main_arg4 := by
  obtain ⟨-, -, -, -, -, -, e0, e1, -⟩ := index_facts t
  funext y
  show V c main_arg4 (((cfg1.win 2).blk t).view.emb y) = V c main_arg4 y
  congr 1
  funext a; apply Fin.ext
  match a with
  | ⟨0, _⟩ => show win1_2.index t (0 : Fin 2) * 128 + 1 * (y 0).val = (y 0).val; omega
  | ⟨1, _⟩ => show win1_2.index t (1 : Fin 2) * 64 + 1 * (y 1).val = (y 1).val; omega

/-- The second layer's bias row is staged whole. -/
theorem block_b1 (c : Dev nD) (t : Fin cfg1.N) : (iblk1 V c 3 t : Vec Ideal S1x64 .f32) = V c main_v47 := by
  obtain ⟨-, -, -, -, -, -, -, -, e0, e1, -⟩ := index_facts t
  funext y
  show V c main_v47 (((cfg1.win 3).blk t).view.emb y) = V c main_v47 y
  congr 1
  funext a; apply Fin.ext
  match a with
  | ⟨0, _⟩ => show win1_3.index t (0 : Fin 2) * 1 + 1 * (y 0).val = (y 0).val; omega
  | ⟨1, _⟩ => show win1_3.index t (1 : Fin 2) * 64 + 1 * (y 1).val = (y 1).val; omega

/-- The third layer's weights are staged whole. -/
theorem block_w2 (c : Dev nD) (t : Fin cfg1.N) : (iblk1 V c 4 t : Vec Ideal S64x128 .f32) = V c main_arg6 := by
  obtain ⟨-, -, -, -, -, -, -, -, -, -, e0, e1, -⟩ := index_facts t
  funext y
  show V c main_arg6 (((cfg1.win 4).blk t).view.emb y) = V c main_arg6 y
  congr 1
  funext a; apply Fin.ext
  match a with
  | ⟨0, _⟩ => show win1_4.index t (0 : Fin 2) * 64 + 1 * (y 0).val = (y 0).val; omega
  | ⟨1, _⟩ => show win1_4.index t (1 : Fin 2) * 128 + 1 * (y 1).val = (y 1).val; omega

/-- The third layer's bias row is staged whole. -/
theorem block_b2 (c : Dev nD) (t : Fin cfg1.N) : (iblk1 V c 5 t : Vec Ideal S1x128 .f32) = V c main_v48 := by
  obtain ⟨-, -, -, -, -, -, -, -, -, -, -, -, e0, e1, -⟩ := index_facts t
  funext y
  show V c main_v48 (((cfg1.win 5).blk t).view.emb y) = V c main_v48 y
  congr 1
  funext a; apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- The last layer's weights are staged whole. -/
theorem block_w3 (c : Dev nD) (t : Fin cfg1.N) : (iblk1 V c 6 t : Vec Ideal S128x256 .f32) = V c main_arg8 := by
  obtain ⟨-, -, -, -, -, -, -, -, -, -, -, -, -, -, e0, e1, -⟩ := index_facts t
  funext y
  show V c main_arg8 (((cfg1.win 6).blk t).view.emb y) = V c main_arg8 y
  congr 1
  funext a; apply Fin.ext
  match a with
  | ⟨0, _⟩ => show win1_6.index t (0 : Fin 2) * 128 + 1 * (y 0).val = (y 0).val; omega
  | ⟨1, _⟩ => show win1_6.index t (1 : Fin 2) * 256 + 1 * (y 1).val = (y 1).val; omega

/-- The last layer's bias row is staged whole. -/
theorem block_b3 (c : Dev nD) (t : Fin cfg1.N) : (iblk1 V c 7 t : Vec Ideal S1x256 .f32) = V c main_v49 := by
  obtain ⟨-, -, -, -, -, -, -, -, -, -, -, -, -, -, -, -, e0, e1⟩ := index_facts t
  funext y
  show V c main_v49 (((cfg1.win 7).blk t).view.emb y) = V c main_v49 y
  congr 1
  funext a; apply Fin.ext
  match a with
  | ⟨0, _⟩ => show win1_7.index t (0 : Fin 2) * 1 + 1 * (y 0).val = (y 0).val; omega
  | ⟨1, _⟩ => show win1_7.index t (1 : Fin 2) * 256 + 1 * (y 1).val = (y 1).val; omega

/-- Entry (p, q) of the output block at point t sits in the output at row 2000 t + p, column q. -/
theorem out_emb (t : Fin cfg1.N) (p : Fin 2000) (h : t.val * 2000 + p.val < 100000) (q : Fin 256) :
    ((cfg1.win 8).blk t).view.emb (ix2 p q) = (ix2 ⟨t.val * 2000 + p.val, h⟩ q : S100000x256.Idx) := by
  obtain ⟨-, -, e0, e1, -⟩ := index_facts t
  funext a; apply Fin.ext
  match a with
  | ⟨0, _⟩ => show win1_8.index t (0 : Fin 2) * 2000 + 1 * p.val = t.val * 2000 + p.val; omega
  | ⟨1, _⟩ => show win1_8.index t (1 : Fin 2) * 256 + 1 * q.val = q.val; omega

/-- What point t writes back is block t of the three layers over all 100000 rows: the body computes the layers over its
    2000 rows, and a row of the layers' result depends on that row of the input only. -/
theorem flushed_eq (c : Dev nD)
    (h128 : (Mat 1 128).BroadcastsInDim (Mat 100000 128) ![0, 1]) (h64 : (Mat 1 64).BroadcastsInDim (Mat 100000 64) ![0, 1])
    (h256 : (Mat 1 256).BroadcastsInDim (Mat 100000 256) ![0, 1]) (hz : S0.BroadcastsInDim (Mat 100000 128) ![])
    (t : Fin cfg1.N) :
    (dat1 (F := Ideal) V c).flushed 8 t
      = ((cfg1.win 8).blk t).view.read (Elt Ideal)
          (chain 100000 h128 h64 h256 hz (V c main_v45) (V c main_v46) (V c main_arg4) (V c main_v47) (V c main_arg6)
            (V c main_v48) (V c main_arg8) (V c main_v49)) := by
  show (cfg1.win 8).cut (grid1.coords t) ((dat1 V c).after 8 t) = _
  rw [after1_8]
  unfold out1_8
  rw [View.canon_unit_zero zero_offsets]
  simp only [View.ld_unit_zero (S := S2000x128) zero_offsets, View.ld_unit_zero (S := S1x128) zero_offsets,
    View.ld_unit_zero (S := S128x64) zero_offsets, View.ld_unit_zero (S := S1x64) zero_offsets,
    View.ld_unit_zero (S := S64x128) zero_offsets, View.ld_unit_zero (S := S128x256) zero_offsets,
    View.ld_unit_zero (S := S1x256) zero_offsets]
  rw [block_b0 V c t, block_w1 V c t, block_b1 V c t, block_w2 V c t, block_b2 V c t, block_w3 V c t, block_b3 V c t]
  have g128 : (Mat 1 128).BroadcastsInDim (Mat 2000 128) ![0, 1] := by decide
  have g64 : (Mat 1 64).BroadcastsInDim (Mat 2000 64) ![0, 1] := by decide
  have g256 : (Mat 1 256).BroadcastsInDim (Mat 2000 256) ![0, 1] := by decide
  have gz : S0.BroadcastsInDim (Mat 2000 128) ![] := by decide
  rw [Payload.pay1_eq g128 g64 g256 gz (iblk1 V c 0 t) (V c main_v46) (V c main_arg4) (V c main_v47) (V c main_arg6)
    (V c main_v48) (V c main_arg8) (V c main_v49)]
  funext j
  obtain ⟨p, q, rfl⟩ : ∃ (p : Fin 2000) (q : Fin 256), j = ix2 p q := ⟨j 0, j 1, eq_ix2 j⟩
  have hrow : t.val * 2000 + p.val < 100000 := by have := point_lt t; have := p.isLt; omega
  show chain 2000 g128 g64 g256 gz (iblk1 V c 0 t) (V c main_v46) (V c main_arg4) (V c main_v47) (V c main_arg6)
        (V c main_v48) (V c main_arg8) (V c main_v49) (ix2 p q)
      = chain 100000 h128 h64 h256 hz (V c main_v45) (V c main_v46) (V c main_arg4) (V c main_v47) (V c main_arg6)
        (V c main_v48) (V c main_arg8) (V c main_v49) (((cfg1.win 8).blk t).view.emb (ix2 p q))
  rw [out_emb t p hrow q]
  exact chain_congr_row 2000 100000 g128 g64 g256 gz h128 h64 h256 hz (iblk1 V c 0 t) (V c main_v45) (V c main_v46)
    (V c main_arg4) (V c main_v47) (V c main_arg6) (V c main_v48) (V c main_arg8) (V c main_v49) p ⟨t.val * 2000 + p.val, hrow⟩
    (fun k => block_a_row V c t p hrow k) q

/-- An index of the output is in point t's block iff each coordinate is in the block's range on its axis. -/
theorem mem_block (t : Fin cfg1.N) (i : S100000x256.Idx) :
    i ∈ ((cfg1.win 8).blk t).view.set ↔ ∀ a : Fin 2, win1_8.index t a * S2000x256.size a ≤ (i a).val
      ∧ (i a).val < win1_8.index t a * S2000x256.size a + S2000x256.size a := by
  show i ∈ ((View.whole main_v50).slice (win1_8.rect t)).set ↔ _
  rw [View.set_slice_whole, Rect.mem_set_unit]
  exact Iff.rfl

/-- The blocks tile the output: row r is in the block of the point r / 2000. -/
theorem cover (i : S100000x256.Idx) :
    ∃ t : Fin cfg1.N, (cfg1.win 8).flush t = true ∧ i ∈ ((cfg1.win 8).blk t).view.set := by
  have hi0 : (i 0).val < 100000 := (i 0).isLt
  have hi1 : (i 1).val < 256 := (i 1).isLt
  have hN : (i 0).val / 2000 < cfg1.N := lt_of_lt_of_eq (by omega : (i 0).val / 2000 < 50) N_1.symm
  refine ⟨⟨(i 0).val / 2000, hN⟩, flush1_8 _, ?_⟩
  rw [mem_block]
  obtain ⟨-, -, e0, e1, -⟩ := index_facts ⟨(i 0).val / 2000, hN⟩
  intro a
  match a with
  | ⟨0, _⟩ =>
    show win1_8.index ⟨(i 0).val / 2000, hN⟩ (0 : Fin 2) * 2000 ≤ (i 0).val
      ∧ (i 0).val < win1_8.index ⟨(i 0).val / 2000, hN⟩ (0 : Fin 2) * 2000 + 2000
    have e0' : win1_8.index ⟨(i 0).val / 2000, hN⟩ (0 : Fin 2) = (i 0).val / 2000 := e0
    omega
  | ⟨1, _⟩ =>
    show win1_8.index ⟨(i 0).val / 2000, hN⟩ (1 : Fin 2) * 256 ≤ (i 1).val
      ∧ (i 1).val < win1_8.index ⟨(i 0).val / 2000, hN⟩ (1 : Fin 2) * 256 + 256
    omega

/-- The array region 1 leaves in its output window is the three dense layers of the arrays it was entered with. -/
theorem region1_array (c : Dev nD)
    (h128 : (Mat 1 128).BroadcastsInDim (Mat 100000 128) ![0, 1]) (h64 : (Mat 1 64).BroadcastsInDim (Mat 100000 64) ![0, 1])
    (h256 : (Mat 1 256).BroadcastsInDim (Mat 100000 256) ![0, 1]) (hz : S0.BroadcastsInDim (Mat 100000 128) ![]) :
    ((dat1 (F := Ideal) V c).arrAt 8 cfg1.N : FVec Ideal S100000x256 .f32)
      = chain 100000 h128 h64 h256 hz (V c main_v45) (V c main_v46) (V c main_arg4) (V c main_v47) (V c main_arg6)
          (V c main_v48) (V c main_arg8) (V c main_v49) :=
  (dat1 (F := Ideal) V c).arrAt_eq_of_cover 8 _ (fun t _ => flushed_eq V c h128 h64 h256 hz t) cover

end Cert.KernelIdeal.Region1

end
-- ==== Proof.HostGlue.lean ====
/-
  What the kernel program's host operations compute, read against the reference's stages. Between the launch and the
  first kernel region the host builds the edge lists with the self-loops appended (rows, columns), the degrees by a
  scatter-add of ones, their inverse square roots, and each edge's normalisation; between the two regions it gathers the
  projected rows, scales them, scatter-adds them per destination node and reshapes the four bias vectors to one-row
  matrices. These are, operation for operation, the reference's own stages of the same launch arrays, and the two
  regions leave the plain product and the three dense layers: so the kernel's result is the reference's last stage.
-/
import proofs.«168724_j9998683865331_1_alg».proof.Proof.Gen.KernelIdeal.Frame
import proofs.«168724_j9998683865331_1_alg».proof.Proof.RefRead
import proofs.«168724_j9998683865331_1_alg».proof.Proof.RefTail
import proofs.«168724_j9998683865331_1_alg».proof.Proof.Region0
import proofs.«168724_j9998683865331_1_alg».proof.Proof.Region1
import Idealize.ShloMosaic.Lib.StableHlo.Run
import Idealize.ShloMosaic.Lib.KernelVsHost

set_option maxRecDepth 16384

noncomputable section

open Idealize.ShloMosaic Idealize.ShloMosaic.TcCoe Idealize.SL.Sem Idealize.ShloMosaic.StableHlo Idealize.ShloMosaic.ValueIdx

namespace Cert.KernelIdeal.Glue

open Cert.KernelIdeal Cert.KernelIdeal.Gen Cert.ReferenceIdeal.ReadP Cert.Dense

/-! ## A vector as a one-row matrix: the kernel program reshapes it, the reference broadcasts it -/

/-- A vector of n entries reshaped to 1 × n is the vector broadcast along axis 1 of a 1 × n matrix. -/
theorem reshape_row_eq_broadcastInDim {α : Type} {n : Nat} (x : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ x h1 = broadcastInDim ⟨2, ![1, n]⟩ ![1] hd x := by
  funext i
  have e2 := shapeCast_apply x h1 i (ix1 (i 1 : Fin n)) (by
    rw [Shape.rowMajor_val_two, Shape.rowMajor_val_one]
    have h0 : (i 0).val < 1 := (i 0).isLt
    show (i 1).val = (i 0).val * n + (i 1).val
    have : (i 0).val = 0 := by omega
    rw [this]; omega)
  have e3 := broadcastInDim_apply ![1] hd x i (ix1 (i 1 : Fin n)) (by
    intro a
    match a with
    | ⟨0, _⟩ =>
      show (i 1).val = if n = 1 then 0 else (i 1).val
      split
      · have := (i 1).isLt; have e : (i 1).val < n := this; omega
      · rfl)
  exact e2.trans e3.symm

variable {F : FTy → Type} [FloatOps F]
variable (m : (ℓ : Loc nD τ sig) → Buf (Elt F) ℓ) (ρ : Dev nD → PrngReg)

/-! ## Before region 0: the arguments untouched, the edge lists and the normalisation -/

theorem arg0_at3 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  simp only [hostOps0, hostOps0_1, hostOps0_2]
  after_results_simp

theorem arg1_at3 (c : Dev nD) : W3 m ρ c (Proc.devRef .tc main_arg1) = m ((c : Thread nD τ).loc main_arg1) := by
  show StableHlo.after hostOps0_2 (StableHlo.after hostOps0_1 (StableHlo.after hostOps0 (W0 m ρ c))) (Proc.devRef .tc main_arg1) = _
  simp only [hostOps0, hostOps0_1, hostOps0_2]
  after_results_simp

/-- The source node of every edge, the self-loops appended. -/
theorem rows_at3 (c : Dev nD) : W3 m ρ c (Proc.devRef .tc main_v3) = val_main_v3 (F := F) (m ((c : Thread nD τ).loc main_arg1)) := by
  show StableHlo.after hostOps0_2 (StableHlo.after hostOps0_1 (StableHlo.after hostOps0 (W0 m ρ c))) (Proc.devRef .tc main_v3) = _
  simp only [hostOps0, hostOps0_1, hostOps0_2]
  after_results_simp
  rfl

/-- The destination node of every edge, the self-loops appended. -/
theorem cols_at3 (c : Dev nD) : W3 m ρ c (Proc.devRef .tc main_v6) = val_main_v6 (F := F) (m ((c : Thread nD τ).loc main_arg1)) := by
  show StableHlo.after hostOps0_2 (StableHlo.after hostOps0_1 (StableHlo.after hostOps0 (W0 m ρ c))) (Proc.devRef .tc main_v6) = _
  simp only [hostOps0, hostOps0_1, hostOps0_2]
  after_results_simp
  rfl

/-- Every edge's normalisation: the product of the inverse square roots of its two ends' degrees. -/
theorem norm_at3 (c : Dev nD) : W3 m ρ c (Proc.devRef .tc main_v31) = val_main_v31 (F := F) (m ((c : Thread nD τ).loc main_arg1)) := by
  show StableHlo.after hostOps0_2 (StableHlo.after hostOps0_1 (StableHlo.after hostOps0 (W0 m ρ c))) (Proc.devRef .tc main_v31) = _
  simp only [hostOps0, hostOps0_1, hostOps0_2]
  after_results_simp
  rfl

theorem arg2_at3 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  simp only [hostOps0, hostOps0_1, hostOps0_2]
  after_results_simp

theorem arg3_at3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  simp only [hostOps0, hostOps0_1, hostOps0_2]
  after_results_simp

theorem arg4_at3 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  simp only [hostOps0, hostOps0_1, hostOps0_2]
  after_results_simp

theorem arg5_at3 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  simp only [hostOps0, hostOps0_1, hostOps0_2]
  after_results_simp

theorem arg6_at3 (c : Dev nD) : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  simp only [hostOps0, hostOps0_1, hostOps0_2]
  after_results_simp

theorem arg7_at3 (c : Dev nD) : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  simp only [hostOps0, hostOps0_1, hostOps0_2]
  after_results_simp

theorem arg8_at3 (c : Dev nD) : W3 m ρ c (Proc.devRef .tc main_arg8) = m ((c : Thread nD τ).loc main_arg8) := by
  show StableHlo.after hostOps0_2 (StableHlo.after hostOps0_1 (StableHlo.after hostOps0 (W0 m ρ c))) (Proc.devRef .tc main_arg8) = _
  simp only [hostOps0, hostOps0_1, hostOps0_2]
  after_results_simp

theorem arg9_at3 (c : Dev nD) : W3 m ρ c (Proc.devRef .tc main_arg9) = m ((c : Thread nD τ).loc main_arg9) := by
  show StableHlo.after hostOps0_2 (StableHlo.after hostOps0_1 (StableHlo.after hostOps0 (W0 m ρ c))) (Proc.devRef .tc main_arg9) = _
  simp only [hostOps0, hostOps0_1, hostOps0_2]
  after_results_simp

/-! ## After region 0: the projected features -/

section AtIdeal
variable (m : (ℓ : Loc nD τ sig) → Buf (Elt Ideal) ℓ) (ρ : Dev nD → PrngReg)

/-- Region 0 leaves h = x · w of the launch arrays. -/
theorem product_at4 (c : Dev nD) : W4 m ρ c (Proc.devRef .tc main_v32)
    = val_main_v32 (F := Ideal) (m ((c : Thread nD τ).loc main_arg0)) (m ((c : Thread nD τ).loc main_arg2)) := by
  refine (W4_arr m ρ c 2).trans ((Cert.KernelIdeal.Region0.region0_array (V3 m ρ) c).trans ?_)
  show Host.dotGeneral (F := Ideal) (φ₁ := .f32) (φ₂ := .f32) (DotDims.plain 100000 256 128) none (W3 m ρ c (Proc.devRef .tc main_arg0)) (W3 m ρ c (Proc.devRef .tc main_arg2)) = _
  rw [arg0_at3, arg2_at3]
  exact (Cert.ReferenceIdeal.Tail.product_eq _ _).symm

end AtIdeal

/-! ## Before region 1: the weights untouched, the biases as one-row matrices, the aggregate -/

theorem arg4_at5 (c : Dev nD) : W5 m ρ c (Proc.devRef .tc main_arg4) = m ((c : Thread nD τ).loc main_arg4) := by
  show StableHlo.after hostOps1 (W4 m ρ c) (Proc.devRef .tc main_arg4) = _
  simp only [hostOps1]
  after_results_simp
  rw [W4_of_ne m ρ c main_arg4 (by decide), arg4_at3]

theorem arg6_at5 (c : Dev nD) : W5 m ρ c (Proc.devRef .tc main_arg6) = m ((c : Thread nD τ).loc main_arg6) := by
  show StableHlo.after hostOps1 (W4 m ρ c) (Proc.devRef .tc main_arg6) = _
  simp only [hostOps1]
  after_results_simp
  rw [W4_of_ne m ρ c main_arg6 (by decide), arg6_at3]

theorem arg8_at5 (c : Dev nD) : W5 m ρ c (Proc.devRef .tc main_arg8) = m ((c : Thread nD τ).loc main_arg8) := by
  show StableHlo.after hostOps1 (W4 m ρ c) (Proc.devRef .tc main_arg8) = _
  simp only [hostOps1]
  after_results_simp
  rw [W4_of_ne m ρ c main_arg8 (by decide), arg8_at3]

/-- The encoder's bias as a one-row matrix. -/
theorem bias3_at5 (c : Dev nD) : W5 m ρ c (Proc.devRef .tc main_v46) = val_main_v46 (F := F) (m ((c : Thread nD τ).loc main_arg3)) := by
  show StableHlo.after hostOps1 (W4 m ρ c) (Proc.devRef .tc main_v46) = _
  simp only [hostOps1]
  after_results_simp
  rw [W4_of_ne m ρ c main_arg3 (by decide), arg3_at3]
  exact reshape_row_eq_broadcastInDim _ _ _

/-- The projection's bias as a one-row matrix. -/
theorem bias5_at5 (c : Dev nD) : W5 m ρ c (Proc.devRef .tc main_v47) = val_main_v51 (F := F) (m ((c : Thread nD τ).loc main_arg5)) := by
  show StableHlo.after hostOps1 (W4 m ρ c) (Proc.devRef .tc main_v47) = _
  simp only [hostOps1]
  after_results_simp
  rw [W4_of_ne m ρ c main_arg5 (by decide), arg5_at3]
  exact reshape_row_eq_broadcastInDim _ _ _

/-- The first decoder layer's bias as a one-row matrix. -/
theorem bias7_at5 (c : Dev nD) : W5 m ρ c (Proc.devRef .tc main_v48) = val_main_v55 (F := F) (m ((c : Thread nD τ).loc main_arg7)) := by
  show StableHlo.after hostOps1 (W4 m ρ c) (Proc.devRef .tc main_v48) = _
  simp only [hostOps1]
  after_results_simp
  rw [W4_of_ne m ρ c main_arg7 (by decide), arg7_at3]
  exact reshape_row_eq_broadcastInDim _ _ _

/-- The second decoder layer's bias as a one-row matrix. -/
theorem bias9_at5 (c : Dev nD) : W5 m ρ c (Proc.devRef .tc main_v49) = val_main_v60 (F := F) (m ((c : Thread nD τ).loc main_arg9)) := by
  show StableHlo.after hostOps1 (W4 m ρ c) (Proc.devRef .tc main_v49) = _
  simp only [hostOps1]
  after_results_simp
  rw [W4_of_ne m ρ c main_arg9 (by decide), arg9_at3]
  exact reshape_row_eq_broadcastInDim _ _ _

section AtIdeal
variable (m : (ℓ : Loc nD τ sig) → Buf (Elt Ideal) ℓ) (ρ : Dev nD → PrngReg)

/-- The aggregate: each node's sum, over the edges that end at it, of the source's projected row times the edge's
    normalisation. -/
theorem aggregate_at5 (c : Dev nD) : W5 m ρ c (Proc.devRef .tc main_v45)
    = val_main_v45 (F := Ideal) (m ((c : Thread nD τ).loc main_arg0)) (m ((c : Thread nD τ).loc main_arg1)) (m ((c : Thread nD τ).loc main_arg2)) := by
  show StableHlo.after hostOps1 (W4 m ρ c) (Proc.devRef .tc main_v45) = _
  simp only [hostOps1]
  after_results_simp
  rw [W4_of_ne m ρ c main_v3 (by decide), W4_of_ne m ρ c main_v6 (by decide), W4_of_ne m ρ c main_v31 (by decide),
    product_at4, rows_at3, cols_at3, norm_at3]
  rfl

/-! ## The result -/

/-- The kernel program's result is the reference's last stage of the same launch arrays. -/
theorem result_at6 (c : Dev nD) : W6 m ρ c (Proc.devRef .tc main_v50)
    = val_main_v62 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) := by
  have h128 : (Mat 1 128).BroadcastsInDim (Mat 100000 128) ![0, 1] := by decide
  have h64 : (Mat 1 64).BroadcastsInDim (Mat 100000 64) ![0, 1] := by decide
  have h256 : (Mat 1 256).BroadcastsInDim (Mat 100000 256) ![0, 1] := by decide
  have hz : S0.BroadcastsInDim (Mat 100000 128) ![] := by decide
  refine (W6_arr m ρ c 8).trans ((Cert.KernelIdeal.Region1.region1_array (V5 m ρ) c h128 h64 h256 hz).trans ?_)
  show chain 100000 h128 h64 h256 hz (W5 m ρ c (Proc.devRef .tc main_v45)) (W5 m ρ c (Proc.devRef .tc main_v46)) (W5 m ρ c (Proc.devRef .tc main_arg4))
    (W5 m ρ c (Proc.devRef .tc main_v47)) (W5 m ρ c (Proc.devRef .tc main_arg6)) (W5 m ρ c (Proc.devRef .tc main_v48)) (W5 m ρ c (Proc.devRef .tc main_arg8))
    (W5 m ρ c (Proc.devRef .tc main_v49)) = _
  rw [aggregate_at5, bias3_at5, arg4_at5, bias5_at5, arg6_at5, bias7_at5, arg8_at5, bias9_at5]
  exact (Cert.ReferenceIdeal.Tail.result_eq_chain _ _ _ _ _ _ _ _ _ _ h128 h64 h256 hz).symm

end AtIdeal

end Cert.KernelIdeal.Glue

end
-- ==== Proof.lean ====
/-
  The certificate of the two-region graph-convolution imputer against its jnp reference.
  Both programs compute, from the node features x, the edge list and the weights,
      h = x · W_conv,   agg = scatter-add over the edges (self-loops appended) of h[source] · norm(edge),
      out = relu (agg + b_conv) · W_lin + b_lin,  then  relu (· W_dec1 + b_dec1) · W_dec2 + b_dec2,
  with norm(edge) the product of the inverse square roots of the two ends' degrees. The kernel program computes h in a
  first kernel region (50 blocks of 2000 rows) and the three dense layers in a second (again 50 blocks of 2000 rows);
  the edge-wise gather, scaling and scatter-add are host operations in both programs, the same ones. At the ideal values
  a change of float format is the identity and a matrix product into a zero accumulator is the product, a row of a
  product or of the dense layers depends on that row of the left operand only, and the blocks tile the rows: so each
  region leaves the whole-array operation the reference applies (`Region0.region0_array`, `Region1.region1_array`), the
  host operations around them are the reference's stages of the same arrays (`Glue.result_at6`), and the two results
  are one term of the launch arrays. No law of arithmetic beyond 0 + x = x is used, so the precondition is not opened.
  The ideal pass rewrote nothing: `preserves` is `True`.
-/
import proofs.«168724_j9998683865331_1_alg».proof.Defs
import proofs.«168724_j9998683865331_1_alg».proof.Proof.Gen.Kernel
import proofs.«168724_j9998683865331_1_alg».proof.Proof.Gen.Kernel.Skeleton
import proofs.«168724_j9998683865331_1_alg».proof.Proof.Gen.Kernel.Launch
import proofs.«168724_j9998683865331_1_alg».proof.Proof.Gen.Kernel.Points
import proofs.«168724_j9998683865331_1_alg».proof.Proof.Gen.Kernel.Frame
import proofs.«168724_j9998683865331_1_alg».proof.Proof.Gen.KernelIdeal
import proofs.«168724_j9998683865331_1_alg».proof.Proof.Gen.KernelIdeal.Skeleton
import proofs.«168724_j9998683865331_1_alg».proof.Proof.Gen.KernelIdeal.Launch
import proofs.«168724_j9998683865331_1_alg».proof.Proof.Gen.KernelIdeal.Points
import proofs.«168724_j9998683865331_1_alg».proof.Proof.Gen.KernelIdeal.Frame
import proofs.«168724_j9998683865331_1_alg».proof.Proof.Gen.ReferenceIdeal
import proofs.«168724_j9998683865331_1_alg».proof.Proof.Gen.Pre_finite_inputs
import proofs.«168724_j9998683865331_1_alg».proof.Proof.RefRun
import proofs.«168724_j9998683865331_1_alg».proof.Proof.RefRead
import proofs.«168724_j9998683865331_1_alg».proof.Proof.KernelRun
import proofs.«168724_j9998683865331_1_alg».proof.Proof.HostGlue
import Idealize.ShloMosaic.Adequacy
import Idealize.ShloMosaic.Init

noncomputable section

namespace Cert.Proof

open Idealize.ShloMosaic Idealize.SL.Sem

/-- The word-level kernel program runs and keeps its arguments: the generated frame certificate of its two regions. -/
theorem frame_kernel : Cert.frame_Kernel := fun m ρ _ => Cert.Kernel.Gen.frame m ρ

/-- The idealized kernel program runs and keeps its arguments: the same certificate read at the ideal values. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the arguments the two programs end with the same result: the kernel program's is the
    reference's last stage of its own launch arrays, the reference's is that stage of its own, and the arrays agree. -/
theorem algebraic : Cert.algebraic_KernelIdeal_ReferenceIdeal := by
  intro m ρ m' ρ' _ hagree
  refine ⟨_, Cert.KernelIdeal.GenP.run_named (F := Ideal) m ρ, ?_⟩
  refine (θ_run Cert.ReferenceIdeal.defs _ _).mono (fun _ h c => ⟨(h c).1.trans ?_, (h c).2⟩)
    (Cert.ReferenceIdeal.ValueP.run (F := Ideal) m' ρ')
  show Cert.ReferenceIdeal.ValueP.res_main_v62 m' c
    = Cert.KernelIdeal.Gen.W6 m ρ c (Proc.devRef .tc Cert.KernelIdeal.main_v50)
  obtain ⟨e0, e1, e2, e3, e4, e5, e6, e7, e8, e9⟩ := hagree c
  rw [Cert.ReferenceIdeal.ReadP.val_main_v62_eq, Cert.KernelIdeal.Glue.result_at6, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
